-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S2x625000 32) (main_arg2 : FVec F S128x128 .f32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S2x625000 : Shape := ⟨2, ![2, 625000]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S5000x128 : Shape := ⟨2, ![5000, 128]⟩

abbrev nBuf : Space → Nat
  | .hbm => 41
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .i32⟩
  | .hbm, ⟨9, _⟩ => ⟨S625000, .i32⟩
  | .hbm, ⟨10, _⟩ => ⟨S625000, .i1⟩
  | .hbm, ⟨11, _⟩ => ⟨S_, .i32⟩
  | .hbm, ⟨12, _⟩ => ⟨S625000, .i32⟩
  | .hbm, ⟨13, _⟩ => ⟨S625000, .i32⟩
  | .hbm, ⟨14, _⟩ => ⟨S625000, .i32⟩
  | .hbm, ⟨15, _⟩ => ⟨S625000x1, .i32⟩
  | .hbm, ⟨16, _⟩ => ⟨S625000x128, .f32⟩
  | .hbm, ⟨17, _⟩ => ⟨S_, .f32⟩
  | .hbm, ⟨18, _⟩ => ⟨S100000x128, .f32⟩
  | .hbm, ⟨19, _⟩ => ⟨S625000x1, .i32⟩
  | .hbm, ⟨20, _⟩ => ⟨S100000x128, .f32⟩
  | .hbm, ⟨21, _⟩ => ⟨S_, .f32⟩
  | .hbm, ⟨22, _⟩ => ⟨S625000, .f32⟩
  | .hbm, ⟨23, _⟩ => ⟨S_, .f32⟩
  | .hbm, ⟨24, _⟩ => ⟨S100000, .f32⟩
  | .hbm, ⟨25, _⟩ => ⟨S625000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S128x128, .bf16⟩
  | .hbm, ⟨38, _⟩ => ⟨S128x128, .f32⟩
  | .hbm, ⟨39, _⟩ => ⟨S128x128, .bf16⟩
  | .hbm, ⟨40, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .i32⟩
  | .hbm, ⟨9, _⟩ => ⟨S625000, .i32⟩
  | .hbm, ⟨10, _⟩ => ⟨S625000, .i1⟩
  | .hbm, ⟨11, _⟩ => ⟨S_, .i32⟩
  | .hbm, ⟨12, _⟩ => ⟨S625000, .i32⟩
  | .hbm, ⟨13, _⟩ => ⟨S625000, .i32⟩
  | .hbm, ⟨14, _⟩ => ⟨S625000, .i32⟩
  | .hbm, ⟨15, _⟩ => ⟨S625000x1, .i32⟩
  | .hbm, ⟨16, _⟩ => ⟨S625000x128, .f32⟩
  | .hbm, ⟨17, _⟩ => ⟨S_, .f32⟩
  | .hbm, ⟨18, _⟩ => ⟨S100000x128, .f32⟩
  | .hbm, ⟨19, _⟩ => ⟨S625000x1, .i32⟩
  | .hbm, ⟨20, _⟩ => ⟨S100000x128, .f32⟩
  | .hbm, ⟨21, _⟩ => ⟨S_, .f32⟩
  | .hbm, ⟨22, _⟩ => ⟨S625000, .f32⟩
  | .hbm, ⟨23, _⟩ => ⟨S_, .f32⟩
  | .hbm, ⟨24, _⟩ => ⟨S100000, .f32⟩
  | .hbm, ⟨25, _⟩ => ⟨S625000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BlockPayload.lean ====
/-
  What the kernel body stores for one block of 5000 nodes, read at one entry: with `a` and `x` the block's rows of
  the normalised aggregate and of the node features and `wt`, `bt` the two weight blocks, entry (p, q) of the stored
  value is  Σ_k a[p, k] · wt[k, q] + Σ_k x[p, k] · bt[k, q].  Over the extended reals the narrowing to sixteen bits
  is the identity and a block product into a zero accumulator is the plain sum over the contracted axis.
-/
import proofs.«168444_j77601469104330_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockPayload

open Cert.KernelIdeal Cert.KernelIdeal.Gen Idealize.ShloMosaic Idealize.ShloMosaic.ValueIdx

/-! ## The block product's operand indices: (row, k) on the left, (k, column) on the right -/

theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contracted (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_contracted (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_column (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at entry (p, q): the sum over the 128 contracted coordinates. -/
theorem block_product {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contracted _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contracted _ _).trans hk
    | ⟨1, _⟩ => exact rhs_column _ _)
  rw [el, er]

/-- The stored value at entry (p, q) of the block. -/
theorem payload_apply (a x : Vec Ideal S5000x128 .f32) (wt bt : Vec Ideal S128x128 .bf16) (p : Fin 5000) (q : Fin 128) :
    k0_pay1 (F := Ideal) a x wt bt (ix2 p q)
      = (∑ k : Fin 128, a (ix2 p k) * wt (ix2 k q)) + ∑ k : Fin 128, x (ix2 p k) * bt (ix2 k q) := by
  unfold k0_pay1
  rw [shapeCast_self, shapeCast_self, shapeCast_self]
  show matmul dot_S5000x128_S128x128_S5000x128_1_0_0_1_n_n none _ _ (constant S5000x128 .f32 0x00000000#32) (ix2 p q) + matmul dot_S5000x128_S128x128_S5000x128_1_0_0_1_n_n none _ _ (constant S5000x128 .f32 0x00000000#32) (ix2 p q) = _
  rw [block_product, block_product]
  rfl

end Cert.KernelIdeal.BlockPayload

end
-- ==== Proof.Spec.lean ====
/-
  The dense update of one graph-convolution layer as ONE function of its four operands, over the extended reals:

      out[i, j] = Σ_k a[i, k] · wt[k, j]  +  Σ_k x[i, k] · bt[k, j]

  for a node i (100000 of them), an output feature j and k over the 128 input features. `a` is the aggregate of
  the gathered messages divided by the degree, `x` the node features, `wt` and `bt` the two transposed weight
  matrices. Both programs are shown to end at this function of the same four arrays.
-/
import Idealize.ShloMosaic.PureOps.Ideal
import Idealize.ShloMosaic.Lib.ValueIdx

noncomputable section

open scoped BigOperators

namespace Cert.GraphUpdate

open Idealize.ShloMosaic Idealize.ShloMosaic.ValueIdx

/-- Node-by-feature arrays, and the square weight matrices. -/
abbrev Nodes : Shape := ⟨2, ![100000, 128]⟩
abbrev Weights : Shape := ⟨2, ![128, 128]⟩

/-- Entry (i, j) of the update: row i of `a` against column j of `wt`, plus row i of `x` against column j of `bt`. -/
def entry (a x : Nodes.Idx → EReal) (wt bt : Weights.Idx → EReal) (i : Fin 100000) (j : Fin 128) : EReal :=
  (∑ k : Fin 128, a (ix2 i k) * wt (ix2 k j)) + ∑ k : Fin 128, x (ix2 i k) * bt (ix2 k j)

/-- The whole updated array. -/
def update (a x : Nodes.Idx → EReal) (wt bt : Weights.Idx → EReal) : Nodes.Idx → EReal :=
  fun i => entry a x wt bt (i 0) (i 1)

theorem update_ix2 (a x : Nodes.Idx → EReal) (wt bt : Weights.Idx → EReal) (i : Fin 100000) (j : Fin 128) :
    update a x wt bt (ix2 i j) = entry a x wt bt i j := rfl

end Cert.GraphUpdate

end
-- ==== Proof.KernelSide.lean ====
/-
  The kernel's result array after its run, as the update function of the four arrays the region is entered with.
  The grid has 20 points; point t stages rows 5000·t … 5000·t + 4999 of the normalised aggregate and of the node
  features, both weight matrices whole, and writes back the same rows of the result. So entry (p, q) of what point t
  writes is the update's entry (5000·t + p, q), and since the 20 row blocks tile the 100000 rows the result array is
  the update everywhere.
-/
import proofs.«168444_j77601469104330_1_alg».proof.Proof.Gen.KernelIdeal.Frame
import proofs.«168444_j77601469104330_1_alg».proof.Proof.Gen.KernelIdeal.Value
import proofs.«168444_j77601469104330_1_alg».proof.Proof.BlockPayload
import proofs.«168444_j77601469104330_1_alg».proof.Proof.Spec

noncomputable section

open scoped BigOperators

namespace Cert.KernelIdeal.KerValue

open Cert.KernelIdeal Cert.KernelIdeal.Gen Cert.KernelIdeal.BlockPayload Cert.GraphUpdate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The five index maps over the grid: the row-blocked windows sit at block row t, column block 0; the weight
    windows at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 20 := lt_of_lt_of_eq t.isLt N_0

/-- Row p of point t's block is node 5000·t + p. -/
def node (t : Fin cfg0.N) (p : Fin 5000) : Fin 100000 :=
  ⟨t.val * 5000 + p.val, by have := point_lt t; have := p.isLt; omega⟩

/-- WHAT POINT t WRITES BACK is block t of the update of the arrays as the region finds them. -/
theorem flushed_eq (c : Dev nD) (t : Fin cfg0.N) :
    (dats m 0 c).flushed 4 t = ((cfg0.win 4).blk t).view.read (Elt Ideal)
      (update (V m c main_v24) (V m c main_arg0) (V m c main_v26) (V m c main_v28)) := by
  rw [Value.flushed4]
  unfold out0_4
  rw [View.canon_unit_zero origin]
  simp only [View.ld_unit_zero (S := S5000x128) origin, View.ld_unit_zero (S := S128x128) origin]
  obtain ⟨e00, e01, e10, e11, e20, e21, e30, e31, e40, e41⟩ := block_indices t
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (ix2 p q)
    = update (V m c main_v24) (V m c main_arg0) (V m c main_v26) (V m c main_v28) (((cfg0.win 4).blk t).view.emb (ix2 p q))
  have hout : ((cfg0.win 4).blk t).view.emb (ix2 p q) = ix2 (node t p) q := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  have hagg : ∀ k : Fin 128, iblk m c 0 t (ix2 p k) = V m c main_v24 (ix2 (node t p) k) := fun k => by
    show V m c main_v24 (((cfg0.win 0).blk t).view.emb (ix2 p k)) = _
    congr 1; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hx : ∀ k : Fin 128, iblk m c 1 t (ix2 p k) = V m c main_arg0 (ix2 (node t p) k) := fun k => by
    show V m c main_arg0 (((cfg0.win 1).blk t).view.emb (ix2 p k)) = _
    congr 1; funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  have hwt : ∀ k : Fin 128, iblk m c 2 t (ix2 k q) = V m c main_v26 (ix2 k q) := fun k => by
    show V m c main_v26 (((cfg0.win 2).blk t).view.emb (ix2 k q)) = _
    congr 1; funext a; apply Fin.ext
    match a with
    | ⟨0, _⟩ => show win0_2.index t (0 : Fin 2) * 128 + 1 * k.val = k.val; omega
    | ⟨1, _⟩ => show win0_2.index t (1 : Fin 2) * 128 + 1 * q.val = q.val; omega
  have hbt : ∀ k : Fin 128, iblk m c 3 t (ix2 k q) = V m c main_v28 (ix2 k q) := fun k => by
    show V m c main_v28 (((cfg0.win 3).blk t).view.emb (ix2 k q)) = _
    congr 1; funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [hout, update_ix2]
  refine (payload_apply (iblk m c 0 t) (iblk m c 1 t) (iblk m c 2 t) (iblk m c 3 t) p q).trans ?_
  unfold entry
  exact congrArg₂ (· + ·)
    (Finset.sum_congr rfl fun k _ => congrArg₂ (· * ·) (hagg k) (hwt k))
    (Finset.sum_congr rfl fun k _ => congrArg₂ (· * ·) (hx k) (hbt k))

/-- An index of the result array is in point t's block iff each coordinate is in the block's range on its axis. -/
theorem mem_block (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v29).slice (win0_4.rect t)).set ↔ _
  rw [View.set_slice_whole, Rect.mem_set_unit]
  exact Iff.rfl

/-- Every entry of the result array is written by some point: row r by point r / 5000. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, -, -, -, -, e40, e41⟩ := block_indices t
  have ht : t.val = (i 0).val / 5000 := rfl
  refine ⟨t, flush0_4 t, ?_⟩
  rw [mem_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE RESULT ARRAY after the run. -/
theorem final (c : Dev nD) :
    (dats m 0 c).arrAt 4 cfg0.N = update (V m c main_v24) (V m c main_arg0) (V m c main_v26) (V m c main_v28) :=
  (dats m 0 c).arrAt_eq_of_cover 4 _ (fun t _ => flushed_eq m c t) covered

end Cert.KernelIdeal.KerValue

end
-- ==== Proof.HostSide.lean ====
/-
  What the kernel's region is entered with. Before its one region the kernel program runs, on the host, the very
  operations the reference runs: the gather of the destination rows, the two scatter-adds into the source slots (the
  messages and the ones), the degree with zero replaced by one, the quotient, and the two transposes; it then narrows
  the transposed weights to sixteen bits, which over the extended reals changes nothing. So the arrays the region
  finds are the reference's own intermediate values of the same arguments.
-/
import proofs.«168444_j77601469104330_1_alg».proof.Proof.Gen.KernelIdeal.Frame
import proofs.«168444_j77601469104330_1_alg».proof.Proof.RefRead
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The normalised aggregate the first window stages. (The degree's zero-to-one replacement is an outlined function: its
    operands and result pass through casts between a buffer's contents and the same contents typed, which are identities.) -/
theorem aggregate_eq (c : Dev nD) :
    (V m c main_v24 : S100000x128.Idx → EReal)
      = Cert.ReferenceIdeal.ReadP.val_main_v24 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  simp only [TRef.ofBuf, TRef.toBuf, cast_eq]
  rfl

/-- The first transposed weight matrix, narrowed. -/
theorem weight_eq (c : Dev nD) :
    (V m c main_v26 : S128x128.Idx → EReal)
      = Cert.ReferenceIdeal.ReadP.val_main_v25 (F := Ideal) (m ((c : Thread nD τ).loc main_arg2)) := by
  dsimp only [V]
  simp only [hostOps0, hostOps0_1, hostOps0_2, List.flatten_cons, List.flatten_nil, List.append_nil, List.cons_append, List.nil_append]
  after_results_simp
  rfl

/-- The second transposed weight matrix, narrowed. -/
theorem self_weight_eq (c : Dev nD) :
    (V m c main_v28 : S128x128.Idx → EReal)
      = Cert.ReferenceIdeal.ReadP.val_main_v27 (F := Ideal) (m ((c : Thread nD τ).loc main_arg3)) := by
  dsimp only [V]
  simp only [hostOps0, hostOps0_1, hostOps0_2, List.flatten_cons, List.flatten_nil, List.append_nil, List.cons_append, List.nil_append]
  after_results_simp
  rfl

end Cert.KernelIdeal.HostSide

end
-- ==== Proof.ReferenceSide.lean ====
/-
  The reference's result is the update function of its own intermediate arrays: its last three operations are two
  `dot_general`s contracting the feature axis — the normalised aggregate against the transposed first weight matrix,
  the node features against the transposed second one — and their sum. Read at entry (p, q) each product is the sum
  over k of (p, k) on the left times (k, q) on the right, which is the update's entry.
-/
import proofs.«168444_j77601469104330_1_alg».proof.Proof.RefRun
import proofs.«168444_j77601469104330_1_alg».proof.Proof.RefRead
import proofs.«168444_j77601469104330_1_alg».proof.Proof.Spec

noncomputable section

open scoped BigOperators

namespace Cert.ReferenceIdeal.RefValue

open Cert.ReferenceIdeal Cert.ReferenceIdeal.ReadP Cert.GraphUpdate Idealize.ShloMosaic Idealize.ShloMosaic.ValueIdx

/-- The two products' operand indices at entry (p, q) and contracted coordinate k. -/
theorem lidx26 (p : Fin 100000) (q k : Fin 128) : lidx_main_v26 (ix2 p q) k = ix2 p k :=
  funext fun a => Fin.ext (by match a with | ⟨0, _⟩ => rfl | ⟨1, _⟩ => rfl)
theorem ridx26 (p : Fin 100000) (q k : Fin 128) : ridx_main_v26 (ix2 p q) k = ix2 k q :=
  funext fun a => Fin.ext (by match a with | ⟨0, _⟩ => rfl | ⟨1, _⟩ => rfl)
theorem lidx28 (p : Fin 100000) (q k : Fin 128) : lidx_main_v28 (ix2 p q) k = ix2 p k :=
  funext fun a => Fin.ext (by match a with | ⟨0, _⟩ => rfl | ⟨1, _⟩ => rfl)
theorem ridx28 (p : Fin 100000) (q k : Fin 128) : ridx_main_v28 (ix2 p q) k = ix2 k q :=
  funext fun a => Fin.ext (by match a with | ⟨0, _⟩ => rfl | ⟨1, _⟩ => rfl)

/-- The reference's result, as a function of the arguments, is the update of the normalised aggregate, the node
    features and the two transposed weight matrices. -/
theorem result_is_update (x0 : (⟨S100000x128, .f32⟩ : BufTy).Contents (Elt Ideal)) (x1 : (⟨S2x625000, .i32⟩ : BufTy).Contents (Elt Ideal))
    (x2 x3 : (⟨S128x128, .f32⟩ : BufTy).Contents (Elt Ideal)) :
    val_main_v29 (F := Ideal) x0 x1 x2 x3
      = update (val_main_v24 (F := Ideal) x0 x1) x0 (val_main_v25 (F := Ideal) x2) (val_main_v27 (F := Ideal) x3) := by
  funext i
  obtain ⟨p, q, rfl⟩ : ∃ (p : Fin 100000) (q : Fin 128), i = ix2 p q := ⟨i 0, i 1, eq_ix2 i⟩
  rw [val_main_v29_apply, val_main_v26_apply, val_main_v28_apply, update_ix2]
  simp only [lidx26, ridx26, lidx28, ridx28]
  rfl

end Cert.ReferenceIdeal.RefValue

end
-- ==== Proof.lean ====
/-
  One layer of a message-passing graph convolution, kernel against reference, over the extended reals.

  Both programs first compute, with the same host operations, the normalised aggregate
      a[i, :] = (Σ over edges e with source i of x[destination e, :]) / max-with-one-at-zero(number of such edges),
  and the two transposed weight matrices wt = Wᵀ, bt = Bᵀ. The reference then takes a · wt + x · bt as two whole
  matrix products and a sum. The kernel narrows wt and bt (and, inside its body, a and x) to sixteen bits, which is
  the identity on extended reals, and computes the same two products and their sum for 5000 nodes at a time over a
  grid of 20 points, whose row blocks tile the 100000 nodes. Entry by entry both results are
      Σ_k a[i, k] · wt[k, j] + Σ_k x[i, k] · bt[k, j],
  sums over the same 128 coordinates in the same order, so no law of the extended reals beyond reading the sums is
  needed and the precondition is not used.

  The three frames are the generated runs; the idealization rewrote nothing, so `preserves` is trivial.
-/
import proofs.«168444_j77601469104330_1_alg».proof.Defs
import proofs.«168444_j77601469104330_1_alg».proof.Proof.Gen.Kernel
import proofs.«168444_j77601469104330_1_alg».proof.Proof.Gen.Kernel.Frame
import proofs.«168444_j77601469104330_1_alg».proof.Proof.Gen.KernelIdeal
import proofs.«168444_j77601469104330_1_alg».proof.Proof.Gen.KernelIdeal.Frame
import proofs.«168444_j77601469104330_1_alg».proof.Proof.Gen.KernelIdeal.Value
import proofs.«168444_j77601469104330_1_alg».proof.Proof.Gen.ReferenceIdeal
import proofs.«168444_j77601469104330_1_alg».proof.Proof.Gen.Pre_finite_inputs
import proofs.«168444_j77601469104330_1_alg».proof.Proof.RefRun
import proofs.«168444_j77601469104330_1_alg».proof.Proof.RefRead
import proofs.«168444_j77601469104330_1_alg».proof.Proof.KernelSide
import proofs.«168444_j77601469104330_1_alg».proof.Proof.HostSide
import proofs.«168444_j77601469104330_1_alg».proof.Proof.ReferenceSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The kernel's run ends with its result array at the update of the arrays its region is entered with; the
    reference's run ends at the update of its own intermediate values; from agreeing arguments those are the same
    arrays. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KerValue.final m c), (h c).2⟩)
    (Cert.KernelIdeal.Value.run_blocks m ρ), ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v29_eq _ _ _ _).trans ?_
  rw [Cert.ReferenceIdeal.RefValue.result_is_update, (hagree c).1, (hagree c).2.1, (hagree c).2.2.1, (hagree c).2.2.2,
    Cert.KernelIdeal.HostSide.aggregate_eq m c, Cert.KernelIdeal.HostSide.weight_eq m c,
    Cert.KernelIdeal.HostSide.self_weight_eq m c, Cert.KernelIdeal.Gen.V_main_arg0 m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
